-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x160000 : Shape := ⟨3, ![16, 4, 160000]⟩
abbrev S_ : Shape := ⟨0, ![]⟩

class Facts : Prop where
  bcast_S_S16x4x160000 : S_.BroadcastsInDim S16x4x160000 (![] : Fin 0 → Fin S16x4x160000.rank)
  reducesTo_S16x4x160000_S_d0_1_2 : S16x4x160000.ReducesTo [0, 1, 2] S_
  h_S_ : 0 < S_.numel

variable [Facts]

def fn {F : FTy → Type} [FloatOps F] (main_arg0 : FVec F S16x4x160000 .f32) : IVec S_ 1 :=
  let main_v0 : FVec F S16x4x160000 .f32 := Host.absf main_arg0
  let main_cst : FVec F S_ .f32 := constant S_ .f32 0x7F800000#32
  let main_v1 : FVec F S16x4x160000 .f32 := broadcastInDim S16x4x160000 ![] bcast_S_S16x4x160000 main_cst
  let main_v2 : IVec S16x4x160000 1 := cmpf .olt main_v0 main_v1
  let main_c : IVec S_ 1 := constantI S_ 1 1#1
  let main_v3 : IVec S_ 1 := (fun x v => Host.reduce IntOp.andi x v reducesTo_S16x4x160000_S_d0_1_2 h_S_) main_v2 main_c
  main_v3
-- ==== Kernel.lean ====
abbrev S16x4x160000 : Shape := ⟨3, ![16, 4, 160000]⟩
abbrev S16x4x159744 : Shape := ⟨3, ![16, 4, 159744]⟩
abbrev S16x4x312x512 : Shape := ⟨4, ![16, 4, 312, 512]⟩
abbrev S16x8192x309 : Shape := ⟨3, ![16, 8192, 309]⟩
abbrev S1x4x312x512 : Shape := ⟨4, ![1, 4, 312, 512]⟩
abbrev S1x8192x309 : Shape := ⟨3, ![1, 8192, 309]⟩
abbrev S4x312x512 : Shape := ⟨3, ![4, 312, 512]⟩
abbrev S1x312x512 : Shape := ⟨3, ![1, 312, 512]⟩
abbrev S312x512 : Shape := ⟨2, ![312, 512]⟩
abbrev S309x512 : Shape := ⟨2, ![309, 512]⟩
abbrev S512x309 : Shape := ⟨2, ![512, 309]⟩
abbrev S8192x309 : Shape := ⟨2, ![8192, 309]⟩

abbrev nBuf : Space → Nat
  | .hbm => 4
  | .vmem => 4
  | .smem => 0
  | _ => 0

abbrev bufTy : (tb : Table) → Fin (tcTables nBuf tb) → BufTy
  | .hbm, ⟨0, _⟩ => ⟨S16x4x160000, .f32⟩
  | .hbm, ⟨1, _⟩ => ⟨S16x4x159744, .f32⟩
  | .hbm, ⟨2, _⟩ => ⟨S16x4x312x512, .f32⟩
  | .hbm, ⟨3, _⟩ => ⟨S16x8192x309, .f32⟩
  | .local _ .vmem, ⟨0, _⟩ => ⟨S1x4x312x512, .f32⟩
  | .local _ .vmem, ⟨1, _⟩ => ⟨S1x4x312x512, .f32⟩
  | .local _ .vmem, ⟨2, _⟩ => ⟨S1x8192x309, .f32⟩
  | .local _ .vmem, ⟨3, _⟩ => ⟨S1x8192x309, .f32⟩
  | _, _ => ⟨S16x4x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x312x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x309 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S16x4x160000_S16x4x159744_0_0_0 : S16x4x160000.Slices ![0, 0, 0] S16x4x159744
  shapeCasts_S16x4x159744_S16x4x312x512 : S16x4x159744.ShapeCasts S16x4x312x512
  inb_S1x4x312x512_S1x4x312x512_0_0_0_0 : ∀ a, (![0, 0, 0, 0] : Fin 4 → Nat) a + S1x4x312x512.size a ≤ S1x4x312x512.size a
  squeezes_S1x4x312x512_S4x312x512 : S1x4x312x512.Squeezes S4x312x512
  inb_S4x312x512_S1x312x512_0_0_0 : ∀ a, (![0, 0, 0] : Fin 3 → Nat) a + S1x312x512.size a ≤ S4x312x512.size a
  squeezes_S1x312x512_S312x512 : S1x312x512.Squeezes S312x512
  inb_S312x512_S309x512_0_0 : ∀ a, (![0, 0] : Fin 2 → Nat) a + S309x512.size a ≤ S312x512.size a
  h_S309x512 : 0 < S309x512.numel
  shapeCasts_S309x512_S309x512 : S309x512.ShapeCasts S309x512
  transposes_S309x512_p1_0_S512x309 : S309x512.Transposes [1, 0] S512x309
  inb_S1x8192x309_S1x8192x309_0_0_0 : ∀ a, (![0, 0, 0] : Fin 3 → Nat) a + S1x8192x309.size a ≤ S1x8192x309.size a
  squeezes_S1x8192x309_S8192x309 : S1x8192x309.Squeezes S8192x309
  inb_S8192x309_S512x309_0_0 : ∀ a, (![0, 0] : Fin 2 → Nat) a + S512x309.size a ≤ S8192x309.size a
  h_S512x309 : 0 < S512x309.numel
  inb_S312x512_S309x512_1_0 : ∀ a, (![1, 0] : Fin 2 → Nat) a + S309x512.size a ≤ S312x512.size a
  inb_S8192x309_S512x309_512_0 : ∀ a, (![512, 0] : Fin 2 → Nat) a + S512x309.size a ≤ S8192x309.size a
  inb_S312x512_S309x512_2_0 : ∀ a, (![2, 0] : Fin 2 → Nat) a + S309x512.size a ≤ S312x512.size a
  inb_S8192x309_S512x309_1024_0 : ∀ a, (![1024, 0] : Fin 2 → Nat) a + S512x309.size a ≤ S8192x309.size a
  inb_S312x512_S309x512_3_0 : ∀ a, (![3, 0] : Fin 2 → Nat) a + S309x512.size a ≤ S312x512.size a
  inb_S8192x309_S512x309_1536_0 : ∀ a, (![1536, 0] : Fin 2 → Nat) a + S512x309.size a ≤ S8192x309.size a
  inb_S4x312x512_S1x312x512_1_0_0 : ∀ a, (![1, 0, 0] : Fin 3 → Nat) a + S1x312x512.size a ≤ S4x312x512.size a
  inb_S8192x309_S512x309_2048_0 : ∀ a, (![2048, 0] : Fin 2 → Nat) a + S512x309.size a ≤ S8192x309.size a
  inb_S8192x309_S512x309_2560_0 : ∀ a, (![2560, 0] : Fin 2 → Nat) a + S512x309.size a ≤ S8192x309.size a
  inb_S8192x309_S512x309_3072_0 : ∀ a, (![3072, 0] : Fin 2 → Nat) a + S512x309.size a ≤ S8192x309.size a
  inb_S8192x309_S512x309_3584_0 : ∀ a, (![3584, 0] : Fin 2 → Nat) a + S512x309.size a ≤ S8192x309.size a
  inb_S4x312x512_S1x312x512_2_0_0 : ∀ a, (![2, 0, 0] : Fin 3 → Nat) a + S1x312x512.size a ≤ S4x312x512.size a
  inb_S8192x309_S512x309_4096_0 : ∀ a, (![4096, 0] : Fin 2 → Nat) a + S512x309.size a ≤ S8192x309.size a
  inb_S8192x309_S512x309_4608_0 : ∀ a, (![4608, 0] : Fin 2 → Nat) a + S512x309.size a ≤ S8192x309.size a
  inb_S8192x309_S512x309_5120_0 : ∀ a, (![5120, 0] : Fin 2 → Nat) a + S512x309.size a ≤ S8192x309.size a
  inb_S8192x309_S512x309_5632_0 : ∀ a, (![5632, 0] : Fin 2 → Nat) a + S512x309.size a ≤ S8192x309.size a
  inb_S4x312x512_S1x312x512_3_0_0 : ∀ a, (![3, 0, 0] : Fin 3 → Nat) a + S1x312x512.size a ≤ S4x312x512.size a
  inb_S8192x309_S512x309_6144_0 : ∀ a, (![6144, 0] : Fin 2 → Nat) a + S512x309.size a ≤ S8192x309.size a
  inb_S8192x309_S512x309_6656_0 : ∀ a, (![6656, 0] : Fin 2 → Nat) a + S512x309.size a ≤ S8192x309.size a
  inb_S8192x309_S512x309_7168_0 : ∀ a, (![7168, 0] : Fin 2 → Nat) a + S512x309.size a ≤ S8192x309.size a
  inb_S8192x309_S512x309_7680_0 : ∀ a, (![7680, 0] : Fin 2 → Nat) a + S512x309.size a ≤ S8192x309.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x312x512.size a ≤ S16x4x312x512.size a
  hwx0_0 : ∀ i : grid0.Coords, EltTy.bits .f32 = 32 ∨ (Rect.block (s := S16x4x312x512) S1x4x312x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x309.size a ≤ S16x8192x309.size a
  hwx0_1 : ∀ i : grid0.Coords, EltTy.bits .f32 = 32 ∨ (Rect.block (s := S16x8192x309) S1x8192x309.size (cc0_transform_1 i) (hinb0_1 i)).WholeWords (EltTy.packing .f32)

variable [Facts₀]

abbrev win0_0 : Pipeline.Window sig grid0 :=
  Pipeline.Window.ofSpec (Memref.whole main_v1) S1x4x312x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192x309.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x160000 : Shape := ⟨3, ![16, 4, 160000]⟩
abbrev S309 : Shape := ⟨1, ![309]⟩
abbrev S_ : Shape := ⟨0, ![]⟩
abbrev S2048 : Shape := ⟨1, ![2048]⟩
abbrev S2048x1 : Shape := ⟨2, ![2048, 1]⟩
abbrev S1x309 : Shape := ⟨2, ![1, 309]⟩
abbrev S2048x309 : Shape := ⟨2, ![2048, 309]⟩
abbrev S2048x309x1 : Shape := ⟨3, ![2048, 309, 1]⟩
abbrev S16x4x2048x309 : Shape := ⟨4, ![16, 4, 2048, 309]⟩
abbrev S16x8192x309 : Shape := ⟨3, ![16, 8192, 309]⟩

abbrev nBuf : Space → Nat
  | .hbm => 21
  | .vmem => 0
  | .smem => 0
  | _ => 0

abbrev bufTy : (tb : Table) → Fin (tcTables nBuf tb) → BufTy
  | .hbm, ⟨0, _⟩ => ⟨S16x4x160000, .f32⟩
  | .hbm, ⟨1, _⟩ => ⟨S309, .i32⟩
  | .hbm, ⟨2, _⟩ => ⟨S_, .i32⟩
  | .hbm, ⟨3, _⟩ => ⟨S309, .i32⟩
  | .hbm, ⟨4, _⟩ => ⟨S309, .i32⟩
  | .hbm, ⟨5, _⟩ => ⟨S2048, .i32⟩
  | .hbm, ⟨6, _⟩ => ⟨S2048x1, .i32⟩
  | .hbm, ⟨7, _⟩ => ⟨S1x309, .i32⟩
  | .hbm, ⟨8, _⟩ => ⟨S2048x309, .i32⟩
  | .hbm, ⟨9, _⟩ => ⟨S2048x309, .i32⟩
  | .hbm, ⟨10, _⟩ => ⟨S2048x309, .i32⟩
  | .hbm, ⟨11, _⟩ => ⟨S_, .i32⟩
  | .hbm, ⟨12, _⟩ => ⟨S2048x309, .i32⟩
  | .hbm, ⟨13, _⟩ => ⟨S2048x309, .i1⟩
  | .hbm, ⟨14, _⟩ => ⟨S_, .i32⟩
  | .hbm, ⟨15, _⟩ => ⟨S2048x309, .i32⟩
  | .hbm, ⟨16, _⟩ => ⟨S2048x309, .i32⟩
  | .hbm, ⟨17, _⟩ => ⟨S2048x309, .i32⟩
  | .hbm, ⟨18, _⟩ => ⟨S2048x309x1, .i32⟩
  | .hbm, ⟨19, _⟩ => ⟨S16x4x2048x309, .f32⟩
  | .hbm, ⟨20, _⟩ => ⟨S16x8192x309, .f32⟩
  | _, _ => ⟨S16x4x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  bcast_S_S309 : S_.BroadcastsInDim S309 (![] : Fin 0 → Fin S309.rank)
  bcast_S2048_S2048x1_0 : S2048.BroadcastsInDim S2048x1 (![0] : Fin 1 → Fin S2048x1.rank)
  bcast_S309_S1x309_1 : S309.BroadcastsInDim S1x309 (![1] : Fin 1 → Fin S1x309.rank)
  bcast_S2048x1_S2048x309_0_1 : S2048x1.BroadcastsInDim S2048x309 (![0, 1] : Fin 2 → Fin S2048x309.rank)
  bcast_S1x309_S2048x309_0_1 : S1x309.BroadcastsInDim S2048x309 (![0, 1] : Fin 2 → Fin S2048x309.rank)
  bcast_S_S2048x309 : S_.BroadcastsInDim S2048x309 (![] : Fin 0 → Fin S2048x309.rank)
  bcast_S2048x309_S2048x309x1_0_1 : S2048x309.BroadcastsInDim S2048x309x1 (![0, 1] : Fin 2 → Fin S2048x309x1.rank)
  shapeCasts_S16x4x2048x309_S16x8192x309 : S16x4x2048x309.ShapeCasts S16x8192x309
  gather_S16x4x160000_S2048x309x1_S16x4x2048x309_01_2_n_n_2_2_1641_wf : GatherDims.WF S16x4x160000 S2048x309x1 S16x4x2048x309 [0, 1] [2] [] [2] [] 2 ![16, 4, 1]

variable [Facts₀]

def gather_S16x4x160000_S2048x309x1_S16x4x2048x309_01_2_n_n_2_2_1641 : GatherDims S16x4x160000 S2048x309x1 S16x4x2048x309 where
  offsetDims := [0, 1]
  collapsedSliceDims := [2]
  operandBatchingDims := []
  startIndicesBatchingDims := []
  startIndexMap := [2]
  indexVectorDim := 2
  sliceSizes := ![16, 4, 1]
  wf := gather_S16x4x160000_S2048x309x1_S16x4x2048x309_01_2_n_n_2_2_1641_wf

class Facts : Prop extends Facts₀ where

variable [Facts]
-- ==== Proof.KernelRun.lean ====
/-
  The body of the framing kernel at one grid point, run once on whole staging buffers.

  The input buffer holds one batch row of the signal cut into 312 chunks of 512 samples per channel
  (shape 1 x 4 x 312 x 512). For each channel c and each quarter q in 0..3 the body reads the 309
  consecutive chunks q .. q+308 of channel c, transposes them to 512 x 309, and writes the result
  into rows c*2048 + q*512 .. + 511 of the output buffer seen as 8192 rows of 309. It also loads the
  output rows it is about to overwrite; that value is never used.

  The run is stated for any float interpretation: from the input buffer at contents `x0` and the
  output buffer at anything, the body ends with the input buffer unchanged and the output buffer at
  its sixteen stores written, in order, over what it held.
-/
import proofs.«141934_j66503273612039_1_alg».proof.Proof.Gen.Kernel.Skeleton
import proofs.«141934_j66503273612039_1_alg».proof.Proof.Gen.Kernel.Frame

set_option maxRecDepth 16384

noncomputable section

namespace Cert.Kernel.Enframe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer without its leading unit axis: 8192 rows of 309 entries. Every store of the body goes
    through this view. -/
abbrev outRows (arg2 : Memref sig .tc .vmem S1x8192x309 .f32) : Memref sig .tc .vmem S8192x309 .f32 :=
  (arg2.slice (Rect.unit (s := S1x8192x309) ![0, 0, 0] S1x8192x309.size inb_S1x8192x309_S1x8192x309_0_0_0) (fun _ => rfl)).squeeze
    S8192x309 squeezes_S1x8192x309_S8192x309

/-- Channel `c` of the input buffer: 312 chunks of 512 samples. Every load of the body goes through such a view. -/
abbrev chan (arg1 : Memref sig .tc .vmem S1x4x312x512 .f32) (c : Nat)
    (hc : ∀ a, (![c, 0, 0] : Fin 3 → Nat) a + S1x312x512.size a ≤ S4x312x512.size a) : Memref sig .tc .vmem S312x512 .f32 :=
  (((arg1.slice (Rect.unit (s := S1x4x312x512) ![0, 0, 0, 0] S1x4x312x512.size inb_S1x4x312x512_S1x4x312x512_0_0_0_0) (fun _ => rfl)).squeeze
      S4x312x512 squeezes_S1x4x312x512_S4x312x512).slice (Rect.unit (s := S4x312x512) ![c, 0, 0] S1x312x512.size hc) (fun _ => rfl)).squeeze
    S312x512 squeezes_S1x312x512_S312x512

/-- The window the body loads for channel `c` and quarter `q`: chunks `q .. q+308` of the channel, read off the
    input buffer held at the contents that read `x0`. -/
def win (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a) : Vec F S309x512 .f32 :=
  View.readAt (Elt F) (chan arg1 c hc).view (Rect.unit (s := S312x512) ![q, 0] S309x512.size hq).toLoadRect (harg1.unread x0)

/-- The sixteen stores of the body as pieces of the 8192 x 309 view, the last store first: the piece at rows
    `c*2048 + q*512 ..` holds the transpose of the window of channel `c`, quarter `q`. -/
def pieces (arg1 : Memref sig .tc .vmem S1x4x312x512 .f32) (harg1 : arg1.IsWhole) (x0 : Vec F S1x4x312x512 .f32) :
    List (View.Piece (Elt F) S8192x309 .f32) :=
  [
    ⟨Rect.unit (s := S8192x309) ![7680, 0] S512x309.size inb_S8192x309_S512x309_7680_0,
      k0_pay2 (win arg1 harg1 x0 3 3 inb_S4x312x512_S1x312x512_3_0_0 inb_S312x512_S309x512_3_0)⟩,
    ⟨Rect.unit (s := S8192x309) ![7168, 0] S512x309.size inb_S8192x309_S512x309_7168_0,
      k0_pay1 (win arg1 harg1 x0 3 2 inb_S4x312x512_S1x312x512_3_0_0 inb_S312x512_S309x512_2_0)⟩,
    ⟨Rect.unit (s := S8192x309) ![6656, 0] S512x309.size inb_S8192x309_S512x309_6656_0,
      k0_pay16 (win arg1 harg1 x0 3 1 inb_S4x312x512_S1x312x512_3_0_0 inb_S312x512_S309x512_1_0)⟩,
    ⟨Rect.unit (s := S8192x309) ![6144, 0] S512x309.size inb_S8192x309_S512x309_6144_0,
      k0_pay15 (win arg1 harg1 x0 3 0 inb_S4x312x512_S1x312x512_3_0_0 inb_S312x512_S309x512_0_0)⟩,
    ⟨Rect.unit (s := S8192x309) ![5632, 0] S512x309.size inb_S8192x309_S512x309_5632_0,
      k0_pay14 (win arg1 harg1 x0 2 3 inb_S4x312x512_S1x312x512_2_0_0 inb_S312x512_S309x512_3_0)⟩,
    ⟨Rect.unit (s := S8192x309) ![5120, 0] S512x309.size inb_S8192x309_S512x309_5120_0,
      k0_pay13 (win arg1 harg1 x0 2 2 inb_S4x312x512_S1x312x512_2_0_0 inb_S312x512_S309x512_2_0)⟩,
    ⟨Rect.unit (s := S8192x309) ![4608, 0] S512x309.size inb_S8192x309_S512x309_4608_0,
      k0_pay12 (win arg1 harg1 x0 2 1 inb_S4x312x512_S1x312x512_2_0_0 inb_S312x512_S309x512_1_0)⟩,
    ⟨Rect.unit (s := S8192x309) ![4096, 0] S512x309.size inb_S8192x309_S512x309_4096_0,
      k0_pay11 (win arg1 harg1 x0 2 0 inb_S4x312x512_S1x312x512_2_0_0 inb_S312x512_S309x512_0_0)⟩,
    ⟨Rect.unit (s := S8192x309) ![3584, 0] S512x309.size inb_S8192x309_S512x309_3584_0,
      k0_pay10 (win arg1 harg1 x0 1 3 inb_S4x312x512_S1x312x512_1_0_0 inb_S312x512_S309x512_3_0)⟩,
    ⟨Rect.unit (s := S8192x309) ![3072, 0] S512x309.size inb_S8192x309_S512x309_3072_0,
      k0_pay9 (win arg1 harg1 x0 1 2 inb_S4x312x512_S1x312x512_1_0_0 inb_S312x512_S309x512_2_0)⟩,
    ⟨Rect.unit (s := S8192x309) ![2560, 0] S512x309.size inb_S8192x309_S512x309_2560_0,
      k0_pay8 (win arg1 harg1 x0 1 1 inb_S4x312x512_S1x312x512_1_0_0 inb_S312x512_S309x512_1_0)⟩,
    ⟨Rect.unit (s := S8192x309) ![2048, 0] S512x309.size inb_S8192x309_S512x309_2048_0,
      k0_pay7 (win arg1 harg1 x0 1 0 inb_S4x312x512_S1x312x512_1_0_0 inb_S312x512_S309x512_0_0)⟩,
    ⟨Rect.unit (s := S8192x309) ![1536, 0] S512x309.size inb_S8192x309_S512x309_1536_0,
      k0_pay6 (win arg1 harg1 x0 0 3 inb_S4x312x512_S1x312x512_0_0_0 inb_S312x512_S309x512_3_0)⟩,
    ⟨Rect.unit (s := S8192x309) ![1024, 0] S512x309.size inb_S8192x309_S512x309_1024_0,
      k0_pay5 (win arg1 harg1 x0 0 2 inb_S4x312x512_S1x312x512_0_0_0 inb_S312x512_S309x512_2_0)⟩,
    ⟨Rect.unit (s := S8192x309) ![512, 0] S512x309.size inb_S8192x309_S512x309_512_0,
      k0_pay4 (win arg1 harg1 x0 0 1 inb_S4x312x512_S1x312x512_0_0_0 inb_S312x512_S309x512_1_0)⟩,
    ⟨Rect.unit (s := S8192x309) ![0, 0] S512x309.size inb_S8192x309_S512x309_0_0,
      k0_pay3 (win arg1 harg1 x0 0 0 inb_S4x312x512_S1x312x512_0_0_0 inb_S312x512_S309x512_0_0)⟩]

set_option maxHeartbeats 2000000 in
/-- The body, started on the input buffer at `x0` and the output buffer at any contents, runs to its end without
    fault, keeps the input buffer, and leaves the output buffer at its sixteen stores written over what it held. -/
theorem bodyRun (c : Dev nD) (i : grid0.Coords)
    (arg1 : Memref sig .tc .vmem S1x4x312x512 .f32) (harg1 : arg1.IsWhole)
    (arg2 : Memref sig .tc .vmem S1x8192x309 .f32) (harg2 : arg2.IsWhole)
    (x0 : Vec F S1x4x312x512 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0
            ∗ (∃ f, arg2.view.loc (c : Thread nD τ) ↦[arg2.view.set]{fullShare}
                (outRows arg2).view.writes (Elt F) f (pieces arg1 harg1 x0))) -∗ K ⟨⟩))
      ⊢ wp frame (wpE (defs₀ (F := F)) Variants.none c none) E (cc0__enframe_kernel i arg1 harg1 arg2 harg2) K := by
  simp only [cc0__enframe_kernel_eq_skeleton]; unfold cc0__enframe_kernel_skel
  simp only [k0_part1_eq_skeleton, k0_part2_eq_skeleton, k0_part3_eq_skeleton, k0_part4_eq_skeleton,
    k0_part5_eq_skeleton, k0_part6_eq_skeleton]
  unfold owns
  rw [harg2.set_eq_univ]
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists f1
  iexact H1

end Cert.Kernel.Enframe

end
-- ==== Proof.LibSliceRead.lean ====
/-
  Reading through nested views of a whole buffer.

  A memref that is a whole buffer, held at the contents that read `X`, is often accessed through a view built
  by slicing, dropping unit axes (a reshape to a shape with the same number of elements), slicing again and
  dropping unit axes again: channel `c` of one batch row, say. A load through such a view reads `X` at the
  index obtained by undoing each step in turn: the load's box index, matched with the inner slice's shape,
  placed by the inner slice, matched with the outer slice's shape, placed by the outer slice.

  The library states the one-level form (a slice reshaped once); this file states the two-level form. Both hold
  for any element interpretation, any shapes and any rectangles.
-/
import Idealize.ShloMosaic.Lib.WholeRead

namespace Idealize.ShloMosaic.Memref.IsWhole

variable {sig : RefSig} {Val : EltTy → Type} {κ : Kind} {sp : Space} {s : Shape} {e : EltTy}
variable {m : Memref sig κ sp s e}

/-- A load through a slice of a reshaped slice of a whole memref's view, reshaped once more, the memref held at
    the contents that read `X`, reads `X` at the outer slice's placement of the reshaped inner placement of the
    reshaped load index. -/
theorem readAt_slice_reshape_slice_reshape_unread (h : m.IsWhole) (X : s.Idx → Val e) (R : Rect s) {s1 : Shape}
    (h1 : s1.numel = R.shape.numel) (R' : Rect s1) {s2 : Shape} (h2 : s2.numel = R'.shape.numel)
    (B : LoadRect s2) (x : B.shape.Idx) :
    View.readAt Val ((((m.view.slice R).reshape s1 h1).slice R').reshape s2 h2) B (h.unread X) x
      = X (R.emb (Shape.reshapeEquiv h1 (R'.emb (Shape.reshapeEquiv h2 (B.idx x))))) :=
  congrFun (h.read_unread X) _

/-- A read through a reshaped slice of a whole memref's view, of any contents `f` of the buffer, is the read
    through the memref's own view at the slice's placement of the reshaped index. -/
theorem read_slice_reshape (m : Memref sig κ sp s e) (R : Rect s) {s1 : Shape} (h1 : s1.numel = R.shape.numel)
    (f : m.view.ty.Contents Val) (y : s1.Idx) :
    ((m.view.slice R).reshape s1 h1).read Val f y = m.view.read Val f (R.emb (Shape.reshapeEquiv h1 y)) := rfl

end Idealize.ShloMosaic.Memref.IsWhole
-- ==== Proof.KernelBlock.lean ====
/-
  What the body leaves in the output buffer, as one function of the input buffer.

  Piece (c, q) of the body's sixteen stores holds, at row h and column n, the window's entry (n, h), which is
  entry (0, c, q + n, h) of the input buffer; it is written at rows c*2048 + q*512 + h. So with the one row
  coordinate r = c*2048 + q*512 + h the output buffer ends holding, at (r, n), the input buffer's entry
  (0, r / 2048, (r % 2048) / 512 + n, r % 512): every piece is a tile of this one function, and the sixteen
  tiles of 512 rows cover all 8192 rows.
-/
import proofs.«141934_j66503273612039_1_alg».proof.Proof.KernelRun
import proofs.«141934_j66503273612039_1_alg».proof.Proof.LibSliceRead
import Idealize.ShloMosaic.Lib.ValueIdx
import Idealize.ShloMosaic.Lib.ValueLayout
import Idealize.ShloMosaic.Lib.Pipeline.Value

set_option maxRecDepth 16384

noncomputable section

namespace Cert.Kernel.Enframe

open Cert.Kernel Cert.Kernel.Gen
open Idealize.ShloMosaic Idealize.ShloMosaic.TcCoe Idealize.ShloMosaic.ValueIdx Idealize.ShloMosaic.Tactic
open Idealize.SL.Sem

variable {F : FTy → Type} [FloatOps F]

/-- The window of channel `c`, quarter `q` at chunk `p`, sample `k` is the input buffer's entry
    `(0, c, q + p, k)`: the two slices place the channel and the chunk offset, the two squeezes put the unit axes back. -/
theorem win_apply (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a)
    (hc4 : c < 4) (hq4 : q + 309 ≤ 312) (p : Fin 309) (k : Fin 512) :
    win arg1 harg1 x0 c q hc hq (ix2 p k)
      = x0 (ix4 (⟨0, Nat.one_pos⟩ : Fin 1) (⟨c, hc4⟩ : Fin 4) (⟨q + p.val, by omega⟩ : Fin 312) k) := by
  unfold win
  refine (harg1.readAt_slice_reshape_slice_reshape_unread x0 _ _ _ _ _ _).trans ?_
  refine congrArg x0 ?_
  have e1 : (Rect.unit (s := S312x512) ![q, 0] S309x512.size hq).toLoadRect.idx (ix2 p k)
      = (ix2 (⟨q + p.val, by omega⟩ : Fin 312) k : S312x512.Idx) := by
    funext a; apply Fin.ext
    match a with
    | ⟨0, _⟩ => show q + 1 * p.val = q + p.val; omega
    | ⟨1, _⟩ => show 0 + 1 * k.val = k.val; omega
  rw [e1, reshapeEquiv_ix2_1ab]
  have e2 : (Rect.unit (s := S4x312x512) ![c, 0, 0] S1x312x512.size hc).emb
        (ix3 (⟨0, Nat.one_pos⟩ : Fin 1) (⟨q + p.val, by omega⟩ : Fin 312) k)
      = (ix3 (⟨c, hc4⟩ : Fin 4) (⟨q + p.val, by omega⟩ : Fin 312) k : S4x312x512.Idx) := by
    funext a; apply Fin.ext
    match a with
    | ⟨0, _⟩ => show c + 1 * 0 = c; omega
    | ⟨1, _⟩ => show 0 + 1 * (q + p.val) = q + p.val; omega
    | ⟨2, _⟩ => show 0 + 1 * k.val = k.val; omega
  rw [e2, reshapeEquiv_ix3_1abc]
  funext a; apply Fin.ext
  match a with
  | ⟨0, _⟩ => show 0 + 1 * 0 = 0; omega
  | ⟨1, _⟩ => show 0 + 1 * c = c; omega
  | ⟨2, _⟩ => show 0 + 1 * (q + p.val) = q + p.val; omega
  | ⟨3, _⟩ => show 0 + 1 * k.val = k.val; omega

/-- A window cast to its own shape and transposed reads, at row `h` and column `n`, the window's entry `(n, h)`. -/
theorem transposed_apply (v : Vec F S309x512 .f32) (h : Fin 512) (n : Fin 309) :
    transpose S512x309 [1, 0] (shapeCast S309x512 v shapeCasts_S309x512_S309x512) transposes_S309x512_p1_0_S512x309 (ix2 h n)
      = v (ix2 n h) := by
  rw [shapeCast_self]
  exact transpose_apply _ v _ (ix2 h n) (ix2 n h) (fun b => by
    match b with
    | ⟨0, _⟩ => rfl
    | ⟨1, _⟩ => rfl)

/-- What the output buffer, seen as 8192 rows of 309, ends holding: at row `r` and column `n` the input buffer's
    entry `(0, r / 2048, (r % 2048) / 512 + n, r % 512)`. -/
def blockRows (x0 : Vec F S1x4x312x512 .f32) : S8192x309.Idx → Elt F .f32 :=
  fun y => x0 (ix4 (⟨0, Nat.one_pos⟩ : Fin 1)
    (⟨(y 0).val / 2048, by have h : (y 0).val < 8192 := (y 0).isLt; omega⟩ : Fin 4)
    (⟨(y 0).val % 2048 / 512 + (y 1).val, by have h : (y 1).val < 309 := (y 1).isLt; omega⟩ : Fin 312)
    (⟨(y 0).val % 512, by omega⟩ : Fin 512))

/-- One store of the body is a tile of `blockRows`: the piece written at rows `off = c*2048 + q*512 ..` with payload the
    transposed window of channel `c`, quarter `q` agrees with `blockRows` at every index of its rectangle. -/
theorem piece_agree (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a)
    (hc4 : c < 4) (hq4 : q < 4) (off : Nat) (hoff : off = c * 2048 + q * 512)
    (inb : ∀ a, (![off, 0] : Fin 2 → Nat) a + S512x309.size a ≤ S8192x309.size a)
    (pay : Vec F S309x512 .f32 → FVec F S512x309 .f32)
    (hpay : ∀ v, pay v = transpose S512x309 [1, 0] (shapeCast S309x512 v shapeCasts_S309x512_S309x512) transposes_S309x512_p1_0_S512x309)
    (x : (Rect.unit (s := S8192x309) ![off, 0] S512x309.size inb).shape.Idx) :
    pay (win arg1 harg1 x0 c q hc hq) x = blockRows x0 ((Rect.unit (s := S8192x309) ![off, 0] S512x309.size inb).emb x) := by
  obtain ⟨h, n, rfl⟩ : ∃ (h : Fin 512) (n : Fin 309), x = ix2 h n := ⟨x 0, x 1, eq_ix2 x⟩
  rw [hpay, transposed_apply, win_apply arg1 harg1 x0 c q hc hq hc4 (by omega) n h]
  unfold blockRows
  refine congrArg x0 ?_
  have hh : h.val < 512 := h.isLt
  funext a; apply Fin.ext
  match a with
  | ⟨0, _⟩ => rfl
  | ⟨1, _⟩ => show c = (off + 1 * h.val) / 2048; omega
  | ⟨2, _⟩ => show q + n.val = (off + 1 * h.val) % 2048 / 512 + (0 + 1 * n.val); omega
  | ⟨3, _⟩ => show h.val = (off + 1 * h.val) % 512; omega

/-- Every one of the sixteen stores is a tile of `blockRows`. -/
theorem pieces_agree (arg1 : Memref sig .tc .vmem S1x4x312x512 .f32) (harg1 : arg1.IsWhole) (x0 : Vec F S1x4x312x512 .f32) :
    ∀ p ∈ pieces arg1 harg1 x0, ∀ x : p.1.shape.Idx, p.2 x = blockRows x0 (p.1.emb x) := by
  unfold pieces
  exact (List.forall_mem_cons.2 ⟨
    (fun x => piece_agree arg1 harg1 x0 3 3 inb_S4x312x512_S1x312x512_3_0_0 inb_S312x512_S309x512_3_0 (by decide) (by decide) 7680 rfl
      inb_S8192x309_S512x309_7680_0 k0_pay2 (fun _ => rfl) x),
    (List.forall_mem_cons.2 ⟨
    (fun x => piece_agree arg1 harg1 x0 3 2 inb_S4x312x512_S1x312x512_3_0_0 inb_S312x512_S309x512_2_0 (by decide) (by decide) 7168 rfl
      inb_S8192x309_S512x309_7168_0 k0_pay1 (fun _ => rfl) x),
    (List.forall_mem_cons.2 ⟨
    (fun x => piece_agree arg1 harg1 x0 3 1 inb_S4x312x512_S1x312x512_3_0_0 inb_S312x512_S309x512_1_0 (by decide) (by decide) 6656 rfl
      inb_S8192x309_S512x309_6656_0 k0_pay16 (fun _ => rfl) x),
    (List.forall_mem_cons.2 ⟨
    (fun x => piece_agree arg1 harg1 x0 3 0 inb_S4x312x512_S1x312x512_3_0_0 inb_S312x512_S309x512_0_0 (by decide) (by decide) 6144 rfl
      inb_S8192x309_S512x309_6144_0 k0_pay15 (fun _ => rfl) x),
    (List.forall_mem_cons.2 ⟨
    (fun x => piece_agree arg1 harg1 x0 2 3 inb_S4x312x512_S1x312x512_2_0_0 inb_S312x512_S309x512_3_0 (by decide) (by decide) 5632 rfl
      inb_S8192x309_S512x309_5632_0 k0_pay14 (fun _ => rfl) x),
    (List.forall_mem_cons.2 ⟨
    (fun x => piece_agree arg1 harg1 x0 2 2 inb_S4x312x512_S1x312x512_2_0_0 inb_S312x512_S309x512_2_0 (by decide) (by decide) 5120 rfl
      inb_S8192x309_S512x309_5120_0 k0_pay13 (fun _ => rfl) x),
    (List.forall_mem_cons.2 ⟨
    (fun x => piece_agree arg1 harg1 x0 2 1 inb_S4x312x512_S1x312x512_2_0_0 inb_S312x512_S309x512_1_0 (by decide) (by decide) 4608 rfl
      inb_S8192x309_S512x309_4608_0 k0_pay12 (fun _ => rfl) x),
    (List.forall_mem_cons.2 ⟨
    (fun x => piece_agree arg1 harg1 x0 2 0 inb_S4x312x512_S1x312x512_2_0_0 inb_S312x512_S309x512_0_0 (by decide) (by decide) 4096 rfl
      inb_S8192x309_S512x309_4096_0 k0_pay11 (fun _ => rfl) x),
    (List.forall_mem_cons.2 ⟨
    (fun x => piece_agree arg1 harg1 x0 1 3 inb_S4x312x512_S1x312x512_1_0_0 inb_S312x512_S309x512_3_0 (by decide) (by decide) 3584 rfl
      inb_S8192x309_S512x309_3584_0 k0_pay10 (fun _ => rfl) x),
    (List.forall_mem_cons.2 ⟨
    (fun x => piece_agree arg1 harg1 x0 1 2 inb_S4x312x512_S1x312x512_1_0_0 inb_S312x512_S309x512_2_0 (by decide) (by decide) 3072 rfl
      inb_S8192x309_S512x309_3072_0 k0_pay9 (fun _ => rfl) x),
    (List.forall_mem_cons.2 ⟨
    (fun x => piece_agree arg1 harg1 x0 1 1 inb_S4x312x512_S1x312x512_1_0_0 inb_S312x512_S309x512_1_0 (by decide) (by decide) 2560 rfl
      inb_S8192x309_S512x309_2560_0 k0_pay8 (fun _ => rfl) x),
    (List.forall_mem_cons.2 ⟨
    (fun x => piece_agree arg1 harg1 x0 1 0 inb_S4x312x512_S1x312x512_1_0_0 inb_S312x512_S309x512_0_0 (by decide) (by decide) 2048 rfl
      inb_S8192x309_S512x309_2048_0 k0_pay7 (fun _ => rfl) x),
    (List.forall_mem_cons.2 ⟨
    (fun x => piece_agree arg1 harg1 x0 0 3 inb_S4x312x512_S1x312x512_0_0_0 inb_S312x512_S309x512_3_0 (by decide) (by decide) 1536 rfl
      inb_S8192x309_S512x309_1536_0 k0_pay6 (fun _ => rfl) x),
    (List.forall_mem_cons.2 ⟨
    (fun x => piece_agree arg1 harg1 x0 0 2 inb_S4x312x512_S1x312x512_0_0_0 inb_S312x512_S309x512_2_0 (by decide) (by decide) 1024 rfl
      inb_S8192x309_S512x309_1024_0 k0_pay5 (fun _ => rfl) x),
    (List.forall_mem_cons.2 ⟨
    (fun x => piece_agree arg1 harg1 x0 0 1 inb_S4x312x512_S1x312x512_0_0_0 inb_S312x512_S309x512_1_0 (by decide) (by decide) 512 rfl
      inb_S8192x309_S512x309_512_0 k0_pay4 (fun _ => rfl) x),
    (List.forall_mem_cons.2 ⟨
    (fun x => piece_agree arg1 harg1 x0 0 0 inb_S4x312x512_S1x312x512_0_0_0 inb_S312x512_S309x512_0_0 (by decide) (by decide) 0 rfl
      inb_S8192x309_S512x309_0_0 k0_pay3 (fun _ => rfl) x),
    (fun _ h => absurd h List.not_mem_nil)⟩)⟩)⟩)⟩)⟩)⟩)⟩)⟩)⟩)⟩)⟩)⟩)⟩)⟩)⟩)⟩)

/-- The sixteen stores tile the 8192 rows in blocks of 512, so every index of the buffer is under one of them. -/
theorem pieces_cover (arg1 : Memref sig .tc .vmem S1x4x312x512 .f32) (harg1 : arg1.IsWhole) (x0 : Vec F S1x4x312x512 .f32)
    (y : S8192x309.Idx) : ∃ p ∈ pieces arg1 harg1 x0, y ∈ p.1.set :=
  View.cover_of_tiledL (pieces arg1 harg1 x0) S512x309.size (by sl_kernel_rfl) y

/-- The output block of one grid point as a function of its input block, with the leading unit axis: entry
    `(0, r, n)` is `blockRows` at `(r, n)`. -/
def outBlock (x0 : Vec F S1x4x312x512 .f32) : Vec F S1x8192x309 .f32 :=
  fun y => blockRows x0 (ix2 (⟨(y 1).val, (y 1).isLt⟩ : Fin 8192) (⟨(y 2).val, (y 2).isLt⟩ : Fin 309))

/-- The output buffer after the body's sixteen stores, whatever it held before, reads `outBlock` of the input block. -/
theorem read_pieces (arg1 : Memref sig .tc .vmem S1x4x312x512 .f32) (harg1 : arg1.IsWhole)
    (arg2 : Memref sig .tc .vmem S1x8192x309 .f32) (x0 : Vec F S1x4x312x512 .f32) (f : arg2.view.ty.Contents (Elt F)) :
    arg2.view.read (Elt F) ((outRows arg2).view.writes (Elt F) f (pieces arg1 harg1 x0)) = outBlock x0 := by
  funext y
  obtain ⟨y0, r, n, rfl⟩ : ∃ (y0 : Fin 1) (r : Fin 8192) (n : Fin 309), y = ix3 y0 r n := ⟨y 0, y 1, y 2, eq_ix3 y⟩
  have key := View.read_writes_apply_of_pieces (outRows arg2).view f (blockRows x0) (pieces arg1 harg1 x0)
    (pieces_agree arg1 harg1 x0) (ix2 r n) (pieces_cover arg1 harg1 x0 (ix2 r n))
  refine Eq.trans ?_ key
  refine (congrArg (arg2.view.read (Elt F) _) ?_).trans
    (Memref.IsWhole.read_slice_reshape arg2 _ _ _ (ix2 r n)).symm
  rw [reshapeEquiv_ix2_1ab]
  funext a; apply Fin.ext
  have h0 : y0.val = 0 := by omega
  match a with
  | ⟨0, _⟩ => show y0.val = 0 + 1 * 0; omega
  | ⟨1, _⟩ => show r.val = 0 + 1 * r.val; omega
  | ⟨2, _⟩ => show n.val = 0 + 1 * n.val; omega

end Cert.Kernel.Enframe

end
-- ==== Proof.KernelFrame.lean ====
/-
  The frame of the framing kernel: the pipeline's proof data, the body obligation, and the run.

  The pipeline has one input window (one batch row of the chunked signal per grid point, fetched at every point)
  and one output window (one batch row of frames per point, written back at every point). After the body at point
  `t` the input's staging buffer still holds its block and the output's staging buffer holds `outBlock` of that
  block; nothing is carried between points. The body obligation at a point is the body's run on the point's
  staging buffers with the output buffer read back as that one function. The library's launch theorem then gives:
  every fair execution of the program ends, faults nowhere, and leaves each array at what the proof data computes.
-/
import proofs.«141934_j66503273612039_1_alg».proof.Proof.KernelBlock

set_option maxRecDepth 16384

noncomputable section

namespace Cert.Kernel.Enframe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t` the
    input buffer at its block and the output buffer at `outBlock` of that block; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- After the body the input buffer holds its block, -/
theorem after_in (c : Dev nD) (t : Fin cfg0.N) : (dats m 0 c).after 0 t = iblk m c 0 t := by dsimp only [dats]
/-- and the output buffer the frames of that block. -/
theorem after_out (c : Dev nD) (t : Fin cfg0.N) : (dats m 0 c).after 1 t = outBlock (iblk m c 0 t) := by dsimp only [dats]

/-- Before the body the input buffer holds its block at every point: it is fetched at every point. -/
theorem before_in (c : Dev nD) (t : Fin cfg0.N) (d) : (dats m 0 c).before 0 t d = iblk m c 0 t :=
  before0_0_of m (dats m 0 c) (A_eq m c 0) (after_in m c) t d

/-- What the body is called with at point `t`: the invariant, the core's debt, and the two staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input buffer holds its block, so the body's run applies; the output buffer, its
    sixteen stores written, reads `outBlock` of the block; the invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (bodyRun c (grid0.coords t) _ _ _ _ (iblk m c 0 t) Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact read_pieces _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every fair execution of the program ends, and every final state has each
    array of the pipeline at what the library computes from the proof data and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without fault and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Enframe

end
-- ==== Proof.IdealRun.lean ====
/-
  The body of the framing kernel at one grid point, run once on whole staging buffers.

  The input buffer holds one batch row of the signal cut into 312 chunks of 512 samples per channel
  (shape 1 x 4 x 312 x 512). For each channel c and each quarter q in 0..3 the body reads the 309
  consecutive chunks q .. q+308 of channel c, transposes them to 512 x 309, and writes the result
  into rows c*2048 + q*512 .. + 511 of the output buffer seen as 8192 rows of 309. It also loads the
  output rows it is about to overwrite; that value is never used.

  The run is stated for any float interpretation: from the input buffer at contents `x0` and the
  output buffer at anything, the body ends with the input buffer unchanged and the output buffer at
  its sixteen stores written, in order, over what it held.
-/
import proofs.«141934_j66503273612039_1_alg».proof.Proof.Gen.KernelIdeal.Skeleton
import proofs.«141934_j66503273612039_1_alg».proof.Proof.Gen.KernelIdeal.Frame

set_option maxRecDepth 16384

noncomputable section

namespace Cert.KernelIdeal.Enframe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer without its leading unit axis: 8192 rows of 309 entries. Every store of the body goes
    through this view. -/
abbrev outRows (arg2 : Memref sig .tc .vmem S1x8192x309 .f32) : Memref sig .tc .vmem S8192x309 .f32 :=
  (arg2.slice (Rect.unit (s := S1x8192x309) ![0, 0, 0] S1x8192x309.size inb_S1x8192x309_S1x8192x309_0_0_0) (fun _ => rfl)).squeeze
    S8192x309 squeezes_S1x8192x309_S8192x309

/-- Channel `c` of the input buffer: 312 chunks of 512 samples. Every load of the body goes through such a view. -/
abbrev chan (arg1 : Memref sig .tc .vmem S1x4x312x512 .f32) (c : Nat)
    (hc : ∀ a, (![c, 0, 0] : Fin 3 → Nat) a + S1x312x512.size a ≤ S4x312x512.size a) : Memref sig .tc .vmem S312x512 .f32 :=
  (((arg1.slice (Rect.unit (s := S1x4x312x512) ![0, 0, 0, 0] S1x4x312x512.size inb_S1x4x312x512_S1x4x312x512_0_0_0_0) (fun _ => rfl)).squeeze
      S4x312x512 squeezes_S1x4x312x512_S4x312x512).slice (Rect.unit (s := S4x312x512) ![c, 0, 0] S1x312x512.size hc) (fun _ => rfl)).squeeze
    S312x512 squeezes_S1x312x512_S312x512

/-- The window the body loads for channel `c` and quarter `q`: chunks `q .. q+308` of the channel, read off the
    input buffer held at the contents that read `x0`. -/
def win (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a) : Vec F S309x512 .f32 :=
  View.readAt (Elt F) (chan arg1 c hc).view (Rect.unit (s := S312x512) ![q, 0] S309x512.size hq).toLoadRect (harg1.unread x0)

/-- The sixteen stores of the body as pieces of the 8192 x 309 view, the last store first: the piece at rows
    `c*2048 + q*512 ..` holds the transpose of the window of channel `c`, quarter `q`. -/
def pieces (arg1 : Memref sig .tc .vmem S1x4x312x512 .f32) (harg1 : arg1.IsWhole) (x0 : Vec F S1x4x312x512 .f32) :
    List (View.Piece (Elt F) S8192x309 .f32) :=
  [
    ⟨Rect.unit (s := S8192x309) ![7680, 0] S512x309.size inb_S8192x309_S512x309_7680_0,
      k0_pay2 (win arg1 harg1 x0 3 3 inb_S4x312x512_S1x312x512_3_0_0 inb_S312x512_S309x512_3_0)⟩,
    ⟨Rect.unit (s := S8192x309) ![7168, 0] S512x309.size inb_S8192x309_S512x309_7168_0,
      k0_pay1 (win arg1 harg1 x0 3 2 inb_S4x312x512_S1x312x512_3_0_0 inb_S312x512_S309x512_2_0)⟩,
    ⟨Rect.unit (s := S8192x309) ![6656, 0] S512x309.size inb_S8192x309_S512x309_6656_0,
      k0_pay16 (win arg1 harg1 x0 3 1 inb_S4x312x512_S1x312x512_3_0_0 inb_S312x512_S309x512_1_0)⟩,
    ⟨Rect.unit (s := S8192x309) ![6144, 0] S512x309.size inb_S8192x309_S512x309_6144_0,
      k0_pay15 (win arg1 harg1 x0 3 0 inb_S4x312x512_S1x312x512_3_0_0 inb_S312x512_S309x512_0_0)⟩,
    ⟨Rect.unit (s := S8192x309) ![5632, 0] S512x309.size inb_S8192x309_S512x309_5632_0,
      k0_pay14 (win arg1 harg1 x0 2 3 inb_S4x312x512_S1x312x512_2_0_0 inb_S312x512_S309x512_3_0)⟩,
    ⟨Rect.unit (s := S8192x309) ![5120, 0] S512x309.size inb_S8192x309_S512x309_5120_0,
      k0_pay13 (win arg1 harg1 x0 2 2 inb_S4x312x512_S1x312x512_2_0_0 inb_S312x512_S309x512_2_0)⟩,
    ⟨Rect.unit (s := S8192x309) ![4608, 0] S512x309.size inb_S8192x309_S512x309_4608_0,
      k0_pay12 (win arg1 harg1 x0 2 1 inb_S4x312x512_S1x312x512_2_0_0 inb_S312x512_S309x512_1_0)⟩,
    ⟨Rect.unit (s := S8192x309) ![4096, 0] S512x309.size inb_S8192x309_S512x309_4096_0,
      k0_pay11 (win arg1 harg1 x0 2 0 inb_S4x312x512_S1x312x512_2_0_0 inb_S312x512_S309x512_0_0)⟩,
    ⟨Rect.unit (s := S8192x309) ![3584, 0] S512x309.size inb_S8192x309_S512x309_3584_0,
      k0_pay10 (win arg1 harg1 x0 1 3 inb_S4x312x512_S1x312x512_1_0_0 inb_S312x512_S309x512_3_0)⟩,
    ⟨Rect.unit (s := S8192x309) ![3072, 0] S512x309.size inb_S8192x309_S512x309_3072_0,
      k0_pay9 (win arg1 harg1 x0 1 2 inb_S4x312x512_S1x312x512_1_0_0 inb_S312x512_S309x512_2_0)⟩,
    ⟨Rect.unit (s := S8192x309) ![2560, 0] S512x309.size inb_S8192x309_S512x309_2560_0,
      k0_pay8 (win arg1 harg1 x0 1 1 inb_S4x312x512_S1x312x512_1_0_0 inb_S312x512_S309x512_1_0)⟩,
    ⟨Rect.unit (s := S8192x309) ![2048, 0] S512x309.size inb_S8192x309_S512x309_2048_0,
      k0_pay7 (win arg1 harg1 x0 1 0 inb_S4x312x512_S1x312x512_1_0_0 inb_S312x512_S309x512_0_0)⟩,
    ⟨Rect.unit (s := S8192x309) ![1536, 0] S512x309.size inb_S8192x309_S512x309_1536_0,
      k0_pay6 (win arg1 harg1 x0 0 3 inb_S4x312x512_S1x312x512_0_0_0 inb_S312x512_S309x512_3_0)⟩,
    ⟨Rect.unit (s := S8192x309) ![1024, 0] S512x309.size inb_S8192x309_S512x309_1024_0,
      k0_pay5 (win arg1 harg1 x0 0 2 inb_S4x312x512_S1x312x512_0_0_0 inb_S312x512_S309x512_2_0)⟩,
    ⟨Rect.unit (s := S8192x309) ![512, 0] S512x309.size inb_S8192x309_S512x309_512_0,
      k0_pay4 (win arg1 harg1 x0 0 1 inb_S4x312x512_S1x312x512_0_0_0 inb_S312x512_S309x512_1_0)⟩,
    ⟨Rect.unit (s := S8192x309) ![0, 0] S512x309.size inb_S8192x309_S512x309_0_0,
      k0_pay3 (win arg1 harg1 x0 0 0 inb_S4x312x512_S1x312x512_0_0_0 inb_S312x512_S309x512_0_0)⟩]

set_option maxHeartbeats 2000000 in
/-- The body, started on the input buffer at `x0` and the output buffer at any contents, runs to its end without
    fault, keeps the input buffer, and leaves the output buffer at its sixteen stores written over what it held. -/
theorem bodyRun (c : Dev nD) (i : grid0.Coords)
    (arg1 : Memref sig .tc .vmem S1x4x312x512 .f32) (harg1 : arg1.IsWhole)
    (arg2 : Memref sig .tc .vmem S1x8192x309 .f32) (harg2 : arg2.IsWhole)
    (x0 : Vec F S1x4x312x512 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0
            ∗ (∃ f, arg2.view.loc (c : Thread nD τ) ↦[arg2.view.set]{fullShare}
                (outRows arg2).view.writes (Elt F) f (pieces arg1 harg1 x0))) -∗ K ⟨⟩))
      ⊢ wp frame (wpE (defs₀ (F := F)) Variants.none c none) E (cc0__enframe_kernel i arg1 harg1 arg2 harg2) K := by
  simp only [cc0__enframe_kernel_eq_skeleton]; unfold cc0__enframe_kernel_skel
  simp only [k0_part1_eq_skeleton, k0_part2_eq_skeleton, k0_part3_eq_skeleton, k0_part4_eq_skeleton,
    k0_part5_eq_skeleton, k0_part6_eq_skeleton]
  unfold owns
  rw [harg2.set_eq_univ]
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists f1
  iexact H1

end Cert.KernelIdeal.Enframe

end
-- ==== Proof.IdealBlock.lean ====
/-
  What the body leaves in the output buffer, as one function of the input buffer.

  Piece (c, q) of the body's sixteen stores holds, at row h and column n, the window's entry (n, h), which is
  entry (0, c, q + n, h) of the input buffer; it is written at rows c*2048 + q*512 + h. So with the one row
  coordinate r = c*2048 + q*512 + h the output buffer ends holding, at (r, n), the input buffer's entry
  (0, r / 2048, (r % 2048) / 512 + n, r % 512): every piece is a tile of this one function, and the sixteen
  tiles of 512 rows cover all 8192 rows.
-/
import proofs.«141934_j66503273612039_1_alg».proof.Proof.IdealRun
import proofs.«141934_j66503273612039_1_alg».proof.Proof.LibSliceRead
import Idealize.ShloMosaic.Lib.ValueIdx
import Idealize.ShloMosaic.Lib.ValueLayout
import Idealize.ShloMosaic.Lib.Pipeline.Value

set_option maxRecDepth 16384

noncomputable section

namespace Cert.KernelIdeal.Enframe

open Cert.KernelIdeal Cert.KernelIdeal.Gen
open Idealize.ShloMosaic Idealize.ShloMosaic.TcCoe Idealize.ShloMosaic.ValueIdx Idealize.ShloMosaic.Tactic
open Idealize.SL.Sem

variable {F : FTy → Type} [FloatOps F]

/-- The window of channel `c`, quarter `q` at chunk `p`, sample `k` is the input buffer's entry
    `(0, c, q + p, k)`: the two slices place the channel and the chunk offset, the two squeezes put the unit axes back. -/
theorem win_apply (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a)
    (hc4 : c < 4) (hq4 : q + 309 ≤ 312) (p : Fin 309) (k : Fin 512) :
    win arg1 harg1 x0 c q hc hq (ix2 p k)
      = x0 (ix4 (⟨0, Nat.one_pos⟩ : Fin 1) (⟨c, hc4⟩ : Fin 4) (⟨q + p.val, by omega⟩ : Fin 312) k) := by
  unfold win
  refine (harg1.readAt_slice_reshape_slice_reshape_unread x0 _ _ _ _ _ _).trans ?_
  refine congrArg x0 ?_
  have e1 : (Rect.unit (s := S312x512) ![q, 0] S309x512.size hq).toLoadRect.idx (ix2 p k)
      = (ix2 (⟨q + p.val, by omega⟩ : Fin 312) k : S312x512.Idx) := by
    funext a; apply Fin.ext
    match a with
    | ⟨0, _⟩ => show q + 1 * p.val = q + p.val; omega
    | ⟨1, _⟩ => show 0 + 1 * k.val = k.val; omega
  rw [e1, reshapeEquiv_ix2_1ab]
  have e2 : (Rect.unit (s := S4x312x512) ![c, 0, 0] S1x312x512.size hc).emb
        (ix3 (⟨0, Nat.one_pos⟩ : Fin 1) (⟨q + p.val, by omega⟩ : Fin 312) k)
      = (ix3 (⟨c, hc4⟩ : Fin 4) (⟨q + p.val, by omega⟩ : Fin 312) k : S4x312x512.Idx) := by
    funext a; apply Fin.ext
    match a with
    | ⟨0, _⟩ => show c + 1 * 0 = c; omega
    | ⟨1, _⟩ => show 0 + 1 * (q + p.val) = q + p.val; omega
    | ⟨2, _⟩ => show 0 + 1 * k.val = k.val; omega
  rw [e2, reshapeEquiv_ix3_1abc]
  funext a; apply Fin.ext
  match a with
  | ⟨0, _⟩ => show 0 + 1 * 0 = 0; omega
  | ⟨1, _⟩ => show 0 + 1 * c = c; omega
  | ⟨2, _⟩ => show 0 + 1 * (q + p.val) = q + p.val; omega
  | ⟨3, _⟩ => show 0 + 1 * k.val = k.val; omega

/-- A window cast to its own shape and transposed reads, at row `h` and column `n`, the window's entry `(n, h)`. -/
theorem transposed_apply (v : Vec F S309x512 .f32) (h : Fin 512) (n : Fin 309) :
    transpose S512x309 [1, 0] (shapeCast S309x512 v shapeCasts_S309x512_S309x512) transposes_S309x512_p1_0_S512x309 (ix2 h n)
      = v (ix2 n h) := by
  rw [shapeCast_self]
  exact transpose_apply _ v _ (ix2 h n) (ix2 n h) (fun b => by
    match b with
    | ⟨0, _⟩ => rfl
    | ⟨1, _⟩ => rfl)

/-- What the output buffer, seen as 8192 rows of 309, ends holding: at row `r` and column `n` the input buffer's
    entry `(0, r / 2048, (r % 2048) / 512 + n, r % 512)`. -/
def blockRows (x0 : Vec F S1x4x312x512 .f32) : S8192x309.Idx → Elt F .f32 :=
  fun y => x0 (ix4 (⟨0, Nat.one_pos⟩ : Fin 1)
    (⟨(y 0).val / 2048, by have h : (y 0).val < 8192 := (y 0).isLt; omega⟩ : Fin 4)
    (⟨(y 0).val % 2048 / 512 + (y 1).val, by have h : (y 1).val < 309 := (y 1).isLt; omega⟩ : Fin 312)
    (⟨(y 0).val % 512, by omega⟩ : Fin 512))

/-- One store of the body is a tile of `blockRows`: the piece written at rows `off = c*2048 + q*512 ..` with payload the
    transposed window of channel `c`, quarter `q` agrees with `blockRows` at every index of its rectangle. -/
theorem piece_agree (arg1 : Memref sig .tc .vmem S1x4x312x512 .f32) (harg1 : arg1.IsWhole) (x0 : Vec F S1x4x312x512 .f32) (c q : Nat)
    (hc : ∀ a, (![c, 0, 0] : Fin 3 → Nat) a + S1x312x512.size a ≤ S4x312x512.size a)
    (hq : ∀ a, (![q, 0] : Fin 2 → Nat) a + S309x512.size a ≤ S312x512.size a)
    (hc4 : c < 4) (hq4 : q < 4) (off : Nat) (hoff : off = c * 2048 + q * 512)
    (inb : ∀ a, (![off, 0] : Fin 2 → Nat) a + S512x309.size a ≤ S8192x309.size a)
    (pay : Vec F S309x512 .f32 → FVec F S512x309 .f32)
    (hpay : ∀ v, pay v = transpose S512x309 [1, 0] (shapeCast S309x512 v shapeCasts_S309x512_S309x512) transposes_S309x512_p1_0_S512x309)
    (x : (Rect.unit (s := S8192x309) ![off, 0] S512x309.size inb).shape.Idx) :
    pay (win arg1 harg1 x0 c q hc hq) x = blockRows x0 ((Rect.unit (s := S8192x309) ![off, 0] S512x309.size inb).emb x) := by
  obtain ⟨h, n, rfl⟩ : ∃ (h : Fin 512) (n : Fin 309), x = ix2 h n := ⟨x 0, x 1, eq_ix2 x⟩
  rw [hpay, transposed_apply, win_apply arg1 harg1 x0 c q hc hq hc4 (by omega) n h]
  unfold blockRows
  refine congrArg x0 ?_
  have hh : h.val < 512 := h.isLt
  funext a; apply Fin.ext
  match a with
  | ⟨0, _⟩ => rfl
  | ⟨1, _⟩ => show c = (off + 1 * h.val) / 2048; omega
  | ⟨2, _⟩ => show q + n.val = (off + 1 * h.val) % 2048 / 512 + (0 + 1 * n.val); omega
  | ⟨3, _⟩ => show h.val = (off + 1 * h.val) % 512; omega

/-- Every one of the sixteen stores is a tile of `blockRows`. -/
theorem pieces_agree (arg1 : Memref sig .tc .vmem S1x4x312x512 .f32) (harg1 : arg1.IsWhole) (x0 : Vec F S1x4x312x512 .f32) :
    ∀ p ∈ pieces arg1 harg1 x0, ∀ x : p.1.shape.Idx, p.2 x = blockRows x0 (p.1.emb x) := by
  unfold pieces
  exact (List.forall_mem_cons.2 ⟨
    (fun x => piece_agree arg1 harg1 x0 3 3 inb_S4x312x512_S1x312x512_3_0_0 inb_S312x512_S309x512_3_0 (by decide) (by decide) 7680 rfl
      inb_S8192x309_S512x309_7680_0 k0_pay2 (fun _ => rfl) x),
    (List.forall_mem_cons.2 ⟨
    (fun x => piece_agree arg1 harg1 x0 3 2 inb_S4x312x512_S1x312x512_3_0_0 inb_S312x512_S309x512_2_0 (by decide) (by decide) 7168 rfl
      inb_S8192x309_S512x309_7168_0 k0_pay1 (fun _ => rfl) x),
    (List.forall_mem_cons.2 ⟨
    (fun x => piece_agree arg1 harg1 x0 3 1 inb_S4x312x512_S1x312x512_3_0_0 inb_S312x512_S309x512_1_0 (by decide) (by decide) 6656 rfl
      inb_S8192x309_S512x309_6656_0 k0_pay16 (fun _ => rfl) x),
    (List.forall_mem_cons.2 ⟨
    (fun x => piece_agree arg1 harg1 x0 3 0 inb_S4x312x512_S1x312x512_3_0_0 inb_S312x512_S309x512_0_0 (by decide) (by decide) 6144 rfl
      inb_S8192x309_S512x309_6144_0 k0_pay15 (fun _ => rfl) x),
    (List.forall_mem_cons.2 ⟨
    (fun x => piece_agree arg1 harg1 x0 2 3 inb_S4x312x512_S1x312x512_2_0_0 inb_S312x512_S309x512_3_0 (by decide) (by decide) 5632 rfl
      inb_S8192x309_S512x309_5632_0 k0_pay14 (fun _ => rfl) x),
    (List.forall_mem_cons.2 ⟨
    (fun x => piece_agree arg1 harg1 x0 2 2 inb_S4x312x512_S1x312x512_2_0_0 inb_S312x512_S309x512_2_0 (by decide) (by decide) 5120 rfl
      inb_S8192x309_S512x309_5120_0 k0_pay13 (fun _ => rfl) x),
    (List.forall_mem_cons.2 ⟨
    (fun x => piece_agree arg1 harg1 x0 2 1 inb_S4x312x512_S1x312x512_2_0_0 inb_S312x512_S309x512_1_0 (by decide) (by decide) 4608 rfl
      inb_S8192x309_S512x309_4608_0 k0_pay12 (fun _ => rfl) x),
    (List.forall_mem_cons.2 ⟨
    (fun x => piece_agree arg1 harg1 x0 2 0 inb_S4x312x512_S1x312x512_2_0_0 inb_S312x512_S309x512_0_0 (by decide) (by decide) 4096 rfl
      inb_S8192x309_S512x309_4096_0 k0_pay11 (fun _ => rfl) x),
    (List.forall_mem_cons.2 ⟨
    (fun x => piece_agree arg1 harg1 x0 1 3 inb_S4x312x512_S1x312x512_1_0_0 inb_S312x512_S309x512_3_0 (by decide) (by decide) 3584 rfl
      inb_S8192x309_S512x309_3584_0 k0_pay10 (fun _ => rfl) x),
    (List.forall_mem_cons.2 ⟨
    (fun x => piece_agree arg1 harg1 x0 1 2 inb_S4x312x512_S1x312x512_1_0_0 inb_S312x512_S309x512_2_0 (by decide) (by decide) 3072 rfl
      inb_S8192x309_S512x309_3072_0 k0_pay9 (fun _ => rfl) x),
    (List.forall_mem_cons.2 ⟨
    (fun x => piece_agree arg1 harg1 x0 1 1 inb_S4x312x512_S1x312x512_1_0_0 inb_S312x512_S309x512_1_0 (by decide) (by decide) 2560 rfl
      inb_S8192x309_S512x309_2560_0 k0_pay8 (fun _ => rfl) x),
    (List.forall_mem_cons.2 ⟨
    (fun x => piece_agree arg1 harg1 x0 1 0 inb_S4x312x512_S1x312x512_1_0_0 inb_S312x512_S309x512_0_0 (by decide) (by decide) 2048 rfl
      inb_S8192x309_S512x309_2048_0 k0_pay7 (fun _ => rfl) x),
    (List.forall_mem_cons.2 ⟨
    (fun x => piece_agree arg1 harg1 x0 0 3 inb_S4x312x512_S1x312x512_0_0_0 inb_S312x512_S309x512_3_0 (by decide) (by decide) 1536 rfl
      inb_S8192x309_S512x309_1536_0 k0_pay6 (fun _ => rfl) x),
    (List.forall_mem_cons.2 ⟨
    (fun x => piece_agree arg1 harg1 x0 0 2 inb_S4x312x512_S1x312x512_0_0_0 inb_S312x512_S309x512_2_0 (by decide) (by decide) 1024 rfl
      inb_S8192x309_S512x309_1024_0 k0_pay5 (fun _ => rfl) x),
    (List.forall_mem_cons.2 ⟨
    (fun x => piece_agree arg1 harg1 x0 0 1 inb_S4x312x512_S1x312x512_0_0_0 inb_S312x512_S309x512_1_0 (by decide) (by decide) 512 rfl
      inb_S8192x309_S512x309_512_0 k0_pay4 (fun _ => rfl) x),
    (List.forall_mem_cons.2 ⟨
    (fun x => piece_agree arg1 harg1 x0 0 0 inb_S4x312x512_S1x312x512_0_0_0 inb_S312x512_S309x512_0_0 (by decide) (by decide) 0 rfl
      inb_S8192x309_S512x309_0_0 k0_pay3 (fun _ => rfl) x),
    (fun _ h => absurd h List.not_mem_nil)⟩)⟩)⟩)⟩)⟩)⟩)⟩)⟩)⟩)⟩)⟩)⟩)⟩)⟩)⟩)⟩)

/-- The sixteen stores tile the 8192 rows in blocks of 512, so every index of the buffer is under one of them. -/
theorem pieces_cover (arg1 : Memref sig .tc .vmem S1x4x312x512 .f32) (harg1 : arg1.IsWhole) (x0 : Vec F S1x4x312x512 .f32)
    (y : S8192x309.Idx) : ∃ p ∈ pieces arg1 harg1 x0, y ∈ p.1.set :=
  View.cover_of_tiledL (pieces arg1 harg1 x0) S512x309.size (by sl_kernel_rfl) y

/-- The output block of one grid point as a function of its input block, with the leading unit axis: entry
    `(0, r, n)` is `blockRows` at `(r, n)`. -/
def outBlock (x0 : Vec F S1x4x312x512 .f32) : Vec F S1x8192x309 .f32 :=
  fun y => blockRows x0 (ix2 (⟨(y 1).val, (y 1).isLt⟩ : Fin 8192) (⟨(y 2).val, (y 2).isLt⟩ : Fin 309))

/-- The output buffer after the body's sixteen stores, whatever it held before, reads `outBlock` of the input block. -/
theorem read_pieces (arg1 : Memref sig .tc .vmem S1x4x312x512 .f32) (harg1 : arg1.IsWhole)
    (arg2 : Memref sig .tc .vmem S1x8192x309 .f32) (x0 : Vec F S1x4x312x512 .f32) (f : arg2.view.ty.Contents (Elt F)) :
    arg2.view.read (Elt F) ((outRows arg2).view.writes (Elt F) f (pieces arg1 harg1 x0)) = outBlock x0 := by
  funext y
  obtain ⟨y0, r, n, rfl⟩ : ∃ (y0 : Fin 1) (r : Fin 8192) (n : Fin 309), y = ix3 y0 r n := ⟨y 0, y 1, y 2, eq_ix3 y⟩
  have key := View.read_writes_apply_of_pieces (outRows arg2).view f (blockRows x0) (pieces arg1 harg1 x0)
    (pieces_agree arg1 harg1 x0) (ix2 r n) (pieces_cover arg1 harg1 x0 (ix2 r n))
  refine Eq.trans ?_ key
  refine (congrArg (arg2.view.read (Elt F) _) ?_).trans
    (Memref.IsWhole.read_slice_reshape arg2 _ _ _ (ix2 r n)).symm
  rw [reshapeEquiv_ix2_1ab]
  funext a; apply Fin.ext
  have h0 : y0.val = 0 := by omega
  match a with
  | ⟨0, _⟩ => show y0.val = 0 + 1 * 0; omega
  | ⟨1, _⟩ => show r.val = 0 + 1 * r.val; omega
  | ⟨2, _⟩ => show n.val = 0 + 1 * n.val; omega

end Cert.KernelIdeal.Enframe

end
-- ==== Proof.IdealFrame.lean ====
/-
  The frame of the framing kernel: the pipeline's proof data, the body obligation, and the run.

  The pipeline has one input window (one batch row of the chunked signal per grid point, fetched at every point)
  and one output window (one batch row of frames per point, written back at every point). After the body at point
  `t` the input's staging buffer still holds its block and the output's staging buffer holds `outBlock` of that
  block; nothing is carried between points. The body obligation at a point is the body's run on the point's
  staging buffers with the output buffer read back as that one function. The library's launch theorem then gives:
  every fair execution of the program ends, faults nowhere, and leaves each array at what the proof data computes.
-/
import proofs.«141934_j66503273612039_1_alg».proof.Proof.IdealBlock

set_option maxRecDepth 16384

noncomputable section

namespace Cert.KernelIdeal.Enframe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t` the
    input buffer at its block and the output buffer at `outBlock` of that block; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- After the body the input buffer holds its block, -/
theorem after_in (c : Dev nD) (t : Fin cfg0.N) : (dats m 0 c).after 0 t = iblk m c 0 t := by dsimp only [dats]
/-- and the output buffer the frames of that block. -/
theorem after_out (c : Dev nD) (t : Fin cfg0.N) : (dats m 0 c).after 1 t = outBlock (iblk m c 0 t) := by dsimp only [dats]

/-- Before the body the input buffer holds its block at every point: it is fetched at every point. -/
theorem before_in (c : Dev nD) (t : Fin cfg0.N) (d) : (dats m 0 c).before 0 t d = iblk m c 0 t :=
  before0_0_of m (dats m 0 c) (A_eq m c 0) (after_in m c) t d

/-- What the body is called with at point `t`: the invariant, the core's debt, and the two staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input buffer holds its block, so the body's run applies; the output buffer, its
    sixteen stores written, reads `outBlock` of the block; the invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (bodyRun c (grid0.coords t) _ _ _ _ (iblk m c 0 t) Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact read_pieces _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every fair execution of the program ends, and every final state has each
    array of the pipeline at what the library computes from the proof data and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without fault and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Enframe

end
-- ==== Proof.Spec.lean ====
/-
  Cutting a signal into overlapping frames.

  The signal `x` has 16 batch rows, 4 channels and 160000 samples per channel. A frame is 2048 consecutive
  samples, and successive frames start 512 samples apart, so there are (160000 - 2048) / 512 + 1 = 309 whole
  frames per channel; the last one ends at sample 2047 + 308 * 512 = 159743. The result stacks, for every batch
  row, the 4 channels' frames along one axis of length 4 * 2048 = 8192: entry (b, c * 2048 + f, n) of the result
  is sample f of frame n of channel c, that is sample f + 512 n of channel c of batch row b.

  Written with the one row coordinate r = c * 2048 + f: the channel is r / 2048 and the sample inside the frame
  is r % 2048.
-/
import Idealize.ShloMosaic.Lib.ValueIdx

namespace Cert.Enframe

open Idealize.ShloMosaic Idealize.ShloMosaic.ValueIdx

/-- The frames of the signal `x`: entry `(b, r, n)` is sample `r % 2048 + 512 n` of channel `r / 2048` of batch
    row `b`. Stated for any element type: nothing is computed, entries are only moved. -/
def frames {α : Type} (x : (⟨3, ![16, 4, 160000]⟩ : Shape).Idx → α) : (⟨3, ![16, 8192, 309]⟩ : Shape).Idx → α :=
  fun j => x (ix3 (n0 := 16) (n1 := 4) (n2 := 160000)
    ⟨(j 0).val, (j 0).isLt⟩
    ⟨(j 1).val / 2048, by have h : (j 1).val < 8192 := (j 1).isLt; omega⟩
    ⟨(j 1).val % 2048 + 512 * (j 2).val, by have h : (j 2).val < 309 := (j 2).isLt; omega⟩)

/-- The frames at an index given by its coordinates. -/
theorem frames_apply {α : Type} (x : (⟨3, ![16, 4, 160000]⟩ : Shape).Idx → α) (b : Fin 16) (r : Fin 8192) (n : Fin 309) :
    frames x (ix3 b r n) = x (ix3 b (⟨r.val / 2048, by omega⟩ : Fin 4) (⟨r.val % 2048 + 512 * n.val, by omega⟩ : Fin 160000)) := rfl

end Cert.Enframe
-- ==== Proof.IdealValue.lean ====
/-
  The array the framing kernel leaves, as one function of its argument.

  Before the region the host cuts the signal to its first 159744 = 312 * 512 samples and splits the sample axis
  into 312 chunks of 512: chunk k, sample s of the chunked array is sample 512 k + s of the signal. Grid point t
  stages batch row t of the chunked array and writes back batch row t of the result.

  The body leaves, at row r and column n of its output block, the input block's entry
  (r / 2048, (r % 2048) / 512 + n, r % 512), which is sample 512 * ((r % 2048) / 512 + n) + r % 512
  = r % 2048 + 512 n of channel r / 2048: exactly the frames of batch row t. The sixteen blocks, one per batch
  row, cover the result array, so after the run the result array is the frames of the argument.
-/
import proofs.«141934_j66503273612039_1_alg».proof.Proof.IdealFrame
import proofs.«141934_j66503273612039_1_alg».proof.Proof.Spec
import Idealize.ShloMosaic.Lib.StableHlo.Run

set_option maxRecDepth 16384

noncomputable section

namespace Cert.KernelIdeal.Enframe

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-- A grid point as a batch row: the grid has sixteen points. -/
abbrev rowOf (t : Fin cfg0.N) : Fin 16 := ⟨t.val, lt_of_lt_of_eq t.isLt N_0⟩

/-- The chunked signal the region stages, at chunk `k`, sample `s` of channel `ch` of batch row `b`: the argument's
    sample `512 k + s` there (the cut keeps the first 312 * 512 samples, the reshape splits them in chunks). -/
theorem staged_apply (c : Dev nD) (b : Fin 16) (ch : Fin 4) (k : Fin 312) (s : Fin 512) :
    (V m c main_v1 : S16x4x312x512.Idx → Elt F .f32) (ix4 b ch k s)
      = (m ((c : Thread nD τ).loc main_arg0) : S16x4x160000.Idx → Elt F .f32)
          (ix3 b ch (⟨512 * k.val + s.val, by omega⟩ : Fin 160000)) := by
  have e : (V m c main_v1 : S16x4x312x512.Idx → Elt F .f32)
      = shapeCast S16x4x312x512 (extractStridedSlice S16x4x159744 ![0, 0, 0]
          (m ((c : Thread nD τ).loc main_arg0) : S16x4x160000.Idx → Elt F .f32) slices_S16x4x160000_S16x4x159744_0_0_0)
          shapeCasts_S16x4x159744_S16x4x312x512 := by
    dsimp only [V, hostOps0]; after_results; rfl
  rw [e]
  have hb : b.val < 16 := b.isLt
  have hch : ch.val < 4 := ch.isLt
  have hk : k.val < 312 := k.isLt
  have hs : s.val < 512 := s.isLt
  rw [shapeCast_apply _ shapeCasts_S16x4x159744_S16x4x312x512 (ix4 b ch k s)
    (ix3 b ch (⟨512 * k.val + s.val, by omega⟩ : Fin 159744) : S16x4x159744.Idx) (by
      rw [Shape.rowMajor_val_three, Shape.rowMajor_val_four]
      show (b.val * 4 + ch.val) * 159744 + (512 * k.val + s.val) = ((b.val * 4 + ch.val) * 312 + k.val) * 512 + s.val
      omega)]
  exact extractStridedSlice_apply _ _ _ _ (ix3 b ch (⟨512 * k.val + s.val, by omega⟩ : Fin 160000)) (fun a => by
    match a with
    | ⟨0, _⟩ => show b.val = 0 + b.val; omega
    | ⟨1, _⟩ => show ch.val = 0 + ch.val; omega
    | ⟨2, _⟩ => show 512 * k.val + s.val = 0 + (512 * k.val + s.val); omega)

/-- The two index maps over the sixteen grid points: point `t` stages and writes back batch row `t`, whole. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The input block of point `t` at `(0, ch, k, s)` is the staged array at batch row `t`. -/
theorem inBlock_apply (c : Dev nD) (t : Fin cfg0.N) (y0 : Fin 1) (ch : Fin 4) (k : Fin 312) (s : Fin 512) :
    iblk m c 0 t (ix4 y0 ch k s) = (V m c main_v1 : S16x4x312x512.Idx → Elt F .f32) (ix4 (rowOf t) ch k s) := by
  obtain ⟨e0, e1, e2, e3, -, -, -⟩ := index_facts t
  unfold iblk
  show (V m c main_v1 : S16x4x312x512.Idx → Elt F .f32) (((cfg0.win 0).blk t).view.emb (ix4 y0 ch k s)) = _
  refine congrArg _ ?_
  have h0 : y0.val = 0 := by omega
  funext a; apply Fin.ext
  match a with
  | ⟨0, _⟩ => show win0_0.index t (0 : Fin 4) * 1 + 1 * y0.val = t.val; omega
  | ⟨1, _⟩ => show win0_0.index t (1 : Fin 4) * 4 + 1 * ch.val = ch.val; omega
  | ⟨2, _⟩ => show win0_0.index t (2 : Fin 4) * 312 + 1 * k.val = k.val; omega
  | ⟨3, _⟩ => show win0_0.index t (3 : Fin 4) * 512 + 1 * s.val = s.val; omega

/-- The output block of point `t` sits at batch row `t` of the result array. -/
theorem outBlock_emb (t : Fin cfg0.N) (y0 : Fin 1) (r : Fin 8192) (n : Fin 309) :
    ((cfg0.win 1).blk t).view.emb (ix3 y0 r n) = (ix3 (rowOf t) r n : S16x8192x309.Idx) := by
  obtain ⟨-, -, -, -, e0, e1, e2⟩ := index_facts t
  have h0 : y0.val = 0 := by omega
  funext a; apply Fin.ext
  match a with
  | ⟨0, _⟩ => show win0_1.index t (0 : Fin 3) * 1 + 1 * y0.val = t.val; omega
  | ⟨1, _⟩ => show win0_1.index t (1 : Fin 3) * 8192 + 1 * r.val = r.val; omega
  | ⟨2, _⟩ => show win0_1.index t (2 : Fin 3) * 309 + 1 * n.val = n.val; omega

/-- WHAT POINT `t` WRITES BACK is block `t` of the frames of the argument. -/
theorem flushed_eq (c : Dev nD) (t : Fin cfg0.N) :
    (dats m 0 c).flushed 1 t
      = ((cfg0.win 1).blk t).view.read (Elt F) (Cert.Enframe.frames (m ((c : Thread nD τ).loc main_arg0) : S16x4x160000.Idx → Elt F .f32)) := by
  show (cfg0.win 1).cut (grid0.coords t) ((dats m 0 c).after 1 t) = _
  rw [after_out]
  funext j
  obtain ⟨y0, r, n, rfl⟩ : ∃ (y0 : Fin 1) (r : Fin 8192) (n : Fin 309), j = ix3 y0 r n := ⟨j 0, j 1, j 2, eq_ix3 j⟩
  show outBlock (iblk m c 0 t) (ix3 y0 r n)
    = Cert.Enframe.frames (m ((c : Thread nD τ).loc main_arg0) : S16x4x160000.Idx → Elt F .f32) (((cfg0.win 1).blk t).view.emb (ix3 y0 r n))
  rw [outBlock_emb, Cert.Enframe.frames_apply]
  unfold outBlock blockRows
  have hr : r.val < 8192 := r.isLt
  have hn : n.val < 309 := n.isLt
  show iblk m c 0 t (ix4 (⟨0, Nat.one_pos⟩ : Fin 1) (⟨r.val / 2048, by omega⟩ : Fin 4)
      (⟨r.val % 2048 / 512 + n.val, by omega⟩ : Fin 312) (⟨r.val % 512, by omega⟩ : Fin 512)) = _
  rw [inBlock_apply, staged_apply]
  refine congrArg _ ?_
  funext a; apply Fin.ext
  match a with
  | ⟨0, _⟩ => rfl
  | ⟨1, _⟩ => rfl
  | ⟨2, _⟩ => show 512 * (r.val % 2048 / 512 + n.val) + r.val % 512 = r.val % 2048 + 512 * n.val; omega

/-- An index of the result array is in point `t`'s block iff each coordinate is in the block's range on its axis. -/
theorem mem_outBlock (t : Fin cfg0.N) (i : S16x8192x309.Idx) :
    i ∈ ((cfg0.win 1).blk t).view.set ↔ ∀ a : Fin 3, win0_1.index t a * S1x8192x309.size a ≤ (i a).val
      ∧ (i a).val < win0_1.index t a * S1x8192x309.size a + S1x8192x309.size a := by
  show i ∈ ((View.whole main_v2).slice (win0_1.rect t)).set ↔ _
  rw [View.set_slice_whole, Rect.mem_set_unit]
  exact Iff.rfl

/-- Every index of the result array is in the block of the point of its batch row. -/
theorem covered (i : S16x8192x309.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 309 := (i 2).isLt
  have hN : (i 0).val < cfg0.N := lt_of_lt_of_eq hi0 N_0.symm
  obtain ⟨-, -, -, -, e0', e1, e2⟩ := index_facts ⟨(i 0).val, hN⟩
  have e0 : win0_1.index ⟨(i 0).val, hN⟩ (0 : Fin 3) = (i 0).val := e0'
  refine ⟨⟨(i 0).val, hN⟩, flush0_1 _, ?_⟩
  rw [mem_outBlock]
  intro a
  match a with
  | ⟨0, _⟩ =>
    show win0_1.index _ (0 : Fin 3) * 1 ≤ (i 0).val ∧ (i 0).val < win0_1.index _ (0 : Fin 3) * 1 + 1
    rw [e0]; omega
  | ⟨1, _⟩ =>
    show win0_1.index _ (1 : Fin 3) * 8192 ≤ (i 1).val ∧ (i 1).val < win0_1.index _ (1 : Fin 3) * 8192 + 8192
    rw [e1]; omega
  | ⟨2, _⟩ =>
    show win0_1.index _ (2 : Fin 3) * 309 ≤ (i 2).val ∧ (i 2).val < win0_1.index _ (2 : Fin 3) * 309 + 309
    rw [e2]; omega

/-- THE RESULT ARRAY after the run is the frames of the argument. -/
theorem final (c : Dev nD) :
    (dats m 0 c).arrAt 1 cfg0.N = Cert.Enframe.frames (m ((c : Thread nD τ).loc main_arg0) : S16x4x160000.Idx → Elt F .f32) :=
  (dats m 0 c).arrAt_eq_of_cover 1 _ (fun t _ => flushed_eq m c t) covered

/-- The run, read: every fair execution ends with the result array at the frames of the argument and the argument
    unchanged. -/
theorem run : θ_run defs (onTc (τ := τ) (main (F := F))) ⟨m, fun _ => 0, ρ⟩ fun r => ∀ c : Dev nD,
      r.2.mem ((c.tc : Thread nD τ).loc main_v2) = Cert.Enframe.frames (m ((c.tc : Thread nD τ).loc main_arg0) : S16x4x160000.Idx → Elt F .f32)
      ∧ r.2.mem ((c.tc : Thread nD τ).loc main_arg0) = m ((c.tc : Thread nD τ).loc main_arg0) :=
  (θ_run defs _ _).mono (fun r h c => ⟨((h c).1 1).trans (final m c),
      ((h c).2 main_arg0 (Pipeline.mem_restRefs_of main_arg0 (by decide) (by decide))).trans (V_main_arg0 m c)⟩)
    (run_main m ρ)

end Cert.KernelIdeal.Enframe

end
-- ==== Proof.RefValue.lean ====
/-
  The reference program computes the frames.

  The reference builds, in 32-bit words, the table of start indices idx[f, n] = f + 512 n for f below 2048 and
  n below 309, normalises it the way array indexing does (a negative index has the axis length 160000 added),
  gathers x[b, c, idx[f, n]] for every batch row b and channel c, and reshapes the result from
  [16, 4, 2048, 309] to [16, 8192, 309].

  Every start index is at most 2047 + 512 * 308 = 159743, far below 2^31 and below 160000: the sum does not
  wrap, it is not negative, so the normalisation keeps it, and the gather's clamp into [0, 159999] keeps it too.
  The reshape merges the channel and the in-frame sample into the row r = c * 2048 + f, so c = r / 2048 and
  f = r % 2048: the result is `Cert.Enframe.frames` of the argument.
-/
import proofs.«141934_j66503273612039_1_alg».proof.Proof.Gen.ReferenceIdeal.Read
import proofs.«141934_j66503273612039_1_alg».proof.Proof.Spec
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo

variable {F : FTy → Type} [FloatOps F]

/-- The start index of sample `f` of frame `n` as the reference computes it: the word of `f + 512 n`. The sum of the
    two words does not wrap and is not negative as a signed word, so the index normalisation leaves it alone. -/
theorem start_word (f : Fin 2048) (n : Fin 309) :
    val_main_v13 (F := F) (ix2 f n) = BitVec.ofNat 32 (f.val + 512 * n.val) := by
  rw [val_main_v13_apply, val_main_v10_apply, val_main_v12_apply, val_main_v8_apply, val_main_v6_apply, val_main_v4_apply,
    val_main_v3_apply, val_main_v7_apply, val_main_v5_apply, val_main_v2_apply, val_main_v0_apply, val_main_v1_apply,
    val_main_c_apply, val_main_v9_apply, val_main_c_0_apply, val_main_v11_apply, val_main_c_1_apply]
  have hsum : IntOp.addi (BitVec.ofNat 32 f.val) (IntOp.muli (BitVec.ofNat 32 n.val) 512#32)
      = BitVec.ofNat 32 (f.val + 512 * n.val) := by
    unfold IntOp.addi IntOp.muli
    apply BitVec.eq_of_toNat_eq
    simp only [BitVec.toNat_add, BitVec.toNat_mul, BitVec.toNat_ofNat]
    omega
  show Scalar.select (IntOp.cmpi .slt (IntOp.addi (BitVec.ofNat 32 f.val) (IntOp.muli (BitVec.ofNat 32 n.val) 512#32)) 0#32)
      (IntOp.addi (IntOp.addi (BitVec.ofNat 32 f.val) (IntOp.muli (BitVec.ofNat 32 n.val) 512#32)) 160000#32)
      (IntOp.addi (BitVec.ofNat 32 f.val) (IntOp.muli (BitVec.ofNat 32 n.val) 512#32)) = _
  rw [hsum]
  have hN : (BitVec.ofNat 32 (f.val + 512 * n.val)).toNat = f.val + 512 * n.val := by
    rw [BitVec.toNat_ofNat]; omega
  have hneg : ¬ IntOp.cmpi .slt (BitVec.ofNat 32 (f.val + 512 * n.val)) 0#32 = 1#1 := by
    rw [Predicate.slt_iff_toNat (by rw [hN]; omega) (by decide), hN]
    exact Nat.not_lt_zero _
  unfold Scalar.select
  exact if_neg hneg

/-- The reference's gather, read at batch row `b`, channel `c`, sample `f`, frame `n`: the operand at `(b, c, s)`
    with `s` the start index at `(f, n)`, read signed and clamped into the axis. The first two axes are carried
    whole (offset axes), the third is the gathered one. -/
theorem gather_apply (x : S16x4x160000.Idx → Elt F .f32) (idx : IVec S2048x309x1 32)
    (b : Fin 16) (c : Fin 4) (f : Fin 2048) (n : Fin 309) :
    Host.gather gather_S16x4x160000_S2048x309x1_S16x4x2048x309_01_2_n_n_2_2_1641 x idx (ix4 b c f n)
      = x (ix3 b c (⟨min (idx (ix3 f n (⟨0, Nat.one_pos⟩ : Fin 1))).toInt.toNat (160000 - 1), by omega⟩ : Fin 160000)) := by
  unfold Host.gather
  refine congrArg x ?_
  funext a; apply Fin.ext
  match a with
  | ⟨0, _⟩ =>
    show gather_S16x4x160000_S2048x309x1_S16x4x2048x309_01_2_n_n_2_2_1641.start (ix4 b c f n) idx 0 + gather_S16x4x160000_S2048x309x1_S16x4x2048x309_01_2_n_n_2_2_1641.batchCoord (ix4 b c f n) 0 + gather_S16x4x160000_S2048x309x1_S16x4x2048x309_01_2_n_n_2_2_1641.offCoord (ix4 b c f n) 0 = b.val
    rw [GatherDims.batchCoord_eq_zero _ _ _ List.not_mem_nil]
    unfold GatherDims.start GatherDims.offCoord
    rw [dif_neg (by decide), dif_pos (by decide)]
    have hax : gather_S16x4x160000_S2048x309x1_S16x4x2048x309_01_2_n_n_2_2_1641.offsetDims[List.idxOf (0 : Fin 3) gather_S16x4x160000_S2048x309x1_S16x4x2048x309_01_2_n_n_2_2_1641.sKept]'(by decide) = (0 : Fin 4) := by decide
    simp only [Nat.zero_add]
    rw [hax]
  | ⟨1, _⟩ =>
    show gather_S16x4x160000_S2048x309x1_S16x4x2048x309_01_2_n_n_2_2_1641.start (ix4 b c f n) idx 1 + gather_S16x4x160000_S2048x309x1_S16x4x2048x309_01_2_n_n_2_2_1641.batchCoord (ix4 b c f n) 1 + gather_S16x4x160000_S2048x309x1_S16x4x2048x309_01_2_n_n_2_2_1641.offCoord (ix4 b c f n) 1 = c.val
    rw [GatherDims.batchCoord_eq_zero _ _ _ List.not_mem_nil]
    unfold GatherDims.start GatherDims.offCoord
    rw [dif_neg (by decide), dif_pos (by decide)]
    have hax : gather_S16x4x160000_S2048x309x1_S16x4x2048x309_01_2_n_n_2_2_1641.offsetDims[List.idxOf (1 : Fin 3) gather_S16x4x160000_S2048x309x1_S16x4x2048x309_01_2_n_n_2_2_1641.sKept]'(by decide) = (1 : Fin 4) := by decide
    simp only [Nat.zero_add]
    rw [hax]
  | ⟨2, _⟩ =>
    show gather_S16x4x160000_S2048x309x1_S16x4x2048x309_01_2_n_n_2_2_1641.start (ix4 b c f n) idx 2 + gather_S16x4x160000_S2048x309x1_S16x4x2048x309_01_2_n_n_2_2_1641.batchCoord (ix4 b c f n) 2 + gather_S16x4x160000_S2048x309x1_S16x4x2048x309_01_2_n_n_2_2_1641.offCoord (ix4 b c f n) 2 = _
    rw [GatherDims.batchCoord_eq_zero _ _ _ List.not_mem_nil]
    unfold GatherDims.start GatherDims.offCoord
    rw [dif_pos (by decide), dif_neg (by decide)]
    have hsi : gather_S16x4x160000_S2048x309x1_S16x4x2048x309_01_2_n_n_2_2_1641.siIdx (ix4 b c f n) ⟨List.idxOf (2 : Fin 3) gather_S16x4x160000_S2048x309x1_S16x4x2048x309_01_2_n_n_2_2_1641.startIndexMap,
        List.idxOf_lt_length_iff.2 (by decide)⟩ = ix3 f n (⟨0, Nat.one_pos⟩ : Fin 1) := by
      funext d; apply Fin.ext
      match d with
      | ⟨0, _⟩ => rfl
      | ⟨1, _⟩ => rfl
      | ⟨2, _⟩ => rfl
    rw [hsi]
    rfl

/-- THE REFERENCE IS THE FRAMES: its last stage, the reshaped gather, is `frames` of the argument array. -/
theorem result_eq (x : (⟨S16x4x160000, .f32⟩ : BufTy).Contents (Elt F)) :
    val_main_v16 (F := F) x = Cert.Enframe.frames x := by
  funext j
  obtain ⟨b, r, n, rfl⟩ : ∃ (b : Fin 16) (r : Fin 8192) (n : Fin 309), j = ix3 b r n := ⟨j 0, j 1, j 2, eq_ix3 j⟩
  rw [val_main_v16_apply, Cert.Enframe.frames_apply]
  have hr : r.val < 8192 := r.isLt
  have hn : n.val < 309 := n.isLt
  have hb : b.val < 16 := b.isLt
  have hidx : idx_main_v16 (ix3 b r n)
      = ix4 b (⟨r.val / 2048, by omega⟩ : Fin 4) (⟨r.val % 2048, by omega⟩ : Fin 2048) n := by
    funext a; apply Fin.ext
    match a with
    | ⟨0, _⟩ => show ((b.val * 8192 + r.val) * 309 + n.val) / 2531328 = b.val; omega
    | ⟨1, _⟩ => show ((b.val * 8192 + r.val) * 309 + n.val) / 632832 % 4 = r.val / 2048; omega
    | ⟨2, _⟩ => show ((b.val * 8192 + r.val) * 309 + n.val) / 309 % 2048 = r.val % 2048; omega
    | ⟨3, _⟩ => show ((b.val * 8192 + r.val) * 309 + n.val) % 309 = n.val; omega
  rw [hidx]
  unfold val_main_v15
  rw [gather_apply]
  refine congrArg x ?_
  have hword : val_main_v14 (F := F) (ix3 (⟨r.val % 2048, by omega⟩ : Fin 2048) n (⟨0, Nat.one_pos⟩ : Fin 1))
      = BitVec.ofNat 32 (r.val % 2048 + 512 * n.val) := by
    rw [val_main_v14_apply]
    exact start_word (⟨r.val % 2048, by omega⟩ : Fin 2048) n
  funext a; apply Fin.ext
  match a with
  | ⟨0, _⟩ => rfl
  | ⟨1, _⟩ => rfl
  | ⟨2, _⟩ =>
    show min (val_main_v14 (F := F) (ix3 (⟨r.val % 2048, by omega⟩ : Fin 2048) n (⟨0, Nat.one_pos⟩ : Fin 1))).toInt.toNat (160000 - 1)
      = r.val % 2048 + 512 * n.val
    rw [hword, Predicate.toInt_ofNat_small _ (by omega)]
    simp only [Int.toNat_natCast]
    omega

end Cert.ReferenceIdeal.RefValue

end
-- ==== Proof.lean ====
/-
  The framing kernel against its reference: both cut a signal of 16 batch rows, 4 channels and 160000 samples into
  309 overlapping frames of 2048 samples, 512 apart, and stack the channels' frames along one axis.

  Nothing is computed: every entry of the result is one entry of the signal. Entry (b, r, n) of the result is
  sample r % 2048 + 512 n of channel r / 2048 of batch row b (`Cert.Enframe.frames`).

  The kernel gets there by cutting the signal to 312 chunks of 512 samples and, per batch row, copying for each
  channel c and each quarter q of a frame the 309 chunks q .. q+308, transposed, into rows c*2048 + q*512 .. of the
  output block: frame n is the concatenation of chunks n, n+1, n+2, n+3, since 2048 = 4 * 512. The reference gathers
  the samples through a table of start indices f + 512 n and reshapes.

  The three frame claims: each program runs to its end on every fair execution, faults nowhere and leaves its
  argument unchanged; the kernel's by running its body once on symbolic buffers and launching it over the sixteen
  grid points, at the word level and at the ideal level alike. The idealization rewrote nothing, so there is nothing
  to preserve. The two idealized programs end with equal results because both results are the frames of the argument.
-/
import proofs.«141934_j66503273612039_1_alg».proof.Defs
import proofs.«141934_j66503273612039_1_alg».proof.Proof.Gen.Kernel
import proofs.«141934_j66503273612039_1_alg».proof.Proof.Gen.KernelIdeal
import proofs.«141934_j66503273612039_1_alg».proof.Proof.Gen.ReferenceIdeal
import proofs.«141934_j66503273612039_1_alg».proof.Proof.Gen.Pre_finite_inputs
import proofs.«141934_j66503273612039_1_alg».proof.Proof.Gen.ReferenceIdeal.Run
import proofs.«141934_j66503273612039_1_alg».proof.Proof.Gen.ReferenceIdeal.Read
import proofs.«141934_j66503273612039_1_alg».proof.Proof.KernelFrame
import proofs.«141934_j66503273612039_1_alg».proof.Proof.IdealValue
import proofs.«141934_j66503273612039_1_alg».proof.Proof.RefValue

noncomputable section

namespace Cert.Proof

open Idealize.ShloMosaic Idealize.ShloMosaic.TcCoe Idealize.SL.Sem

/-- The word-level kernel runs to its end, faults nowhere and keeps its argument. -/
theorem frame_kernel : Cert.frame_Kernel := fun m ρ _ => Cert.Kernel.Enframe.frame (F := Bits) m ρ

/-- So does the idealized kernel. -/
theorem frame_kernelIdeal : Cert.frame_KernelIdeal := fun m ρ _ => Cert.KernelIdeal.Enframe.frame (F := Ideal) m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the argument both idealized programs end with the frames of that argument. -/
theorem algebraic : Cert.algebraic_KernelIdeal_ReferenceIdeal := by
  intro m ρ m' ρ' _ hagree
  refine ⟨fun c => Cert.Enframe.frames (m ((c.tc : Thread Cert.KernelIdeal.nD Cert.KernelIdeal.τ).loc Cert.KernelIdeal.main_arg0)),
    Cert.KernelIdeal.Enframe.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
